-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts]

def fn {F : FTy → Type} [FloatOps F] (main_arg0 : FVec F S8388608x3 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  main_v3
-- ==== Kernel.lean ====
abbrev S8388608x3 : Shape := ⟨2, ![8388608, 3]⟩
abbrev S8388608x1 : Shape := ⟨2, ![8388608, 1]⟩
abbrev S8388608 : Shape := ⟨1, ![8388608]⟩
abbrev S65536x128 : Shape := ⟨2, ![65536, 128]⟩
abbrev S4096x128 : Shape := ⟨2, ![4096, 128]⟩
abbrev S_ : Shape := ⟨0, ![]⟩
abbrev S4194304 : Shape := ⟨1, ![4194304]⟩
abbrev S2048x2048 : Shape := ⟨2, ![2048, 2048]⟩

abbrev nBuf : Space → Nat
  | .hbm => 23
  | .vmem => 6
  | .smem => 0
  | _ => 0

abbrev bufTy : (tb : Table) → Fin (tcTables nBuf tb) → BufTy
  | .hbm, ⟨0, _⟩ => ⟨S8388608x3, .f32⟩
  | .hbm, ⟨1, _⟩ => ⟨S8388608x1, .f32⟩
  | .hbm, ⟨2, _⟩ => ⟨S8388608, .f32⟩
  | .hbm, ⟨3, _⟩ => ⟨S65536x128, .f32⟩
  | .hbm, ⟨4, _⟩ => ⟨S8388608x1, .f32⟩
  | .hbm, ⟨5, _⟩ => ⟨S8388608, .f32⟩
  | .hbm, ⟨6, _⟩ => ⟨S65536x128, .f32⟩
  | .hbm, ⟨7, _⟩ => ⟨S8388608x1, .f32⟩
  | .hbm, ⟨8, _⟩ => ⟨S8388608, .f32⟩
  | .hbm, ⟨9, _⟩ => ⟨S65536x128, .i32⟩
  | .hbm, ⟨10, _⟩ => ⟨S8388608, .i32⟩
  | .hbm, ⟨11, _⟩ => ⟨S_, .f32⟩
  | .hbm, ⟨12, _⟩ => ⟨S4194304, .f32⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S_, .i32⟩
  | .hbm, ⟨17, _⟩ => ⟨S8388608, .i32⟩
  | .hbm, ⟨18, _⟩ => ⟨S8388608, .i32⟩
  | .hbm, ⟨19, _⟩ => ⟨S8388608, .i32⟩
  | .hbm, ⟨20, _⟩ => ⟨S8388608x1, .i32⟩
  | .hbm, ⟨21, _⟩ => ⟨S4194304, .f32⟩
  | .hbm, ⟨22, _⟩ => ⟨S2048x2048, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .i32⟩
  | .local _ .vmem, ⟨5, _⟩ => ⟨S4096x128, .i32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8388608x3_S8388608x1_0_0 : S8388608x3.Slices ![0, 0] S8388608x1
  shapeCasts_S8388608x1_S8388608 : S8388608x1.ShapeCasts S8388608
  shapeCasts_S8388608_S65536x128 : S8388608.ShapeCasts S65536x128
  slices_S8388608x3_S8388608x1_0_1 : S8388608x3.Slices ![0, 1] S8388608x1
  slices_S8388608x3_S8388608x1_0_2 : S8388608x3.Slices ![0, 2] S8388608x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S65536x128_S8388608 : S65536x128.ShapeCasts S8388608
  bcast_S_S4194304 : S_.BroadcastsInDim S4194304 (![] : Fin 0 → Fin S4194304.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S4194304_S2048x2048 : S4194304.ShapeCasts S2048x2048
  scatter_S4194304_S8388608x1_S8388608_n_0_0_1_wf : ScatterDims.WF S4194304 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .i32 = 32 ∨ (Rect.block (s := S65536x128) S4096x128.size (cc0_transform_2 i) (hinb0_2 i)).WholeWords (EltTy.packing .i32)

variable [Facts₀]

def scatter_S4194304_S8388608x1_S8388608_n_0_0_1 : ScatterDims S4194304 S8388608x1 S8388608 where
  updateWindowDims := []
  insertedWindowDims := [0]
  scatterDimsToOperandDims := [0]
  indexVectorDim := 1
  wf := scatter_S4194304_S8388608x1_S8388608_n_0_0_1_wf

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608x2 : Shape := ⟨2, ![8388608, 2]⟩
abbrev S_ : Shape := ⟨0, ![]⟩
abbrev S8388608x1 : Shape := ⟨2, ![8388608, 1]⟩
abbrev S8388608 : Shape := ⟨1, ![8388608]⟩
abbrev S4194304 : Shape := ⟨1, ![4194304]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608x2, .f32⟩
  | .hbm, ⟨2, _⟩ => ⟨S_, .f32⟩
  | .hbm, ⟨3, _⟩ => ⟨S8388608x2, .f32⟩
  | .hbm, ⟨4, _⟩ => ⟨S8388608x2, .f32⟩
  | .hbm, ⟨5, _⟩ => ⟨S8388608x2, .f32⟩
  | .hbm, ⟨6, _⟩ => ⟨S8388608x2, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8388608x2, .i32⟩
  | .hbm, ⟨11, _⟩ => ⟨S8388608x2, .i32⟩
  | .hbm, ⟨12, _⟩ => ⟨S_, .i32⟩
  | .hbm, ⟨13, _⟩ => ⟨S8388608x2, .i32⟩
  | .hbm, ⟨14, _⟩ => ⟨S8388608x2, .i32⟩
  | .hbm, ⟨15, _⟩ => ⟨S8388608x1, .i32⟩
  | .hbm, ⟨16, _⟩ => ⟨S8388608, .i32⟩
  | .hbm, ⟨17, _⟩ => ⟨S_, .i32⟩
  | .hbm, ⟨18, _⟩ => ⟨S8388608, .i32⟩
  | .hbm, ⟨19, _⟩ => ⟨S8388608, .i32⟩
  | .hbm, ⟨20, _⟩ => ⟨S8388608x1, .i32⟩
  | .hbm, ⟨21, _⟩ => ⟨S8388608, .i32⟩
  | .hbm, ⟨22, _⟩ => ⟨S8388608, .i32⟩
  | .hbm, ⟨23, _⟩ => ⟨S8388608x1, .f32⟩
  | .hbm, ⟨24, _⟩ => ⟨S8388608, .f32⟩
  | .hbm, ⟨25, _⟩ => ⟨S_, .f32⟩
  | .hbm, ⟨26, _⟩ => ⟨S4194304, .f32⟩
  | .hbm, ⟨27, _⟩ => ⟨S_, .i32⟩
  | .hbm, ⟨28, _⟩ => ⟨S8388608, .i32⟩
  | .hbm, ⟨29, _⟩ => ⟨S8388608, .i1⟩
  | .hbm, ⟨30, _⟩ => ⟨S_, .i32⟩
  | .hbm, ⟨31, _⟩ => ⟨S8388608, .i32⟩
  | .hbm, ⟨32, _⟩ => ⟨S8388608, .i32⟩
  | .hbm, ⟨33, _⟩ => ⟨S8388608, .i32⟩
  | .hbm, ⟨34, _⟩ => ⟨S8388608x1, .i32⟩
  | .hbm, ⟨35, _⟩ => ⟨S4194304, .f32⟩
  | .hbm, ⟨36, _⟩ => ⟨S2048x2048, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  slices_S8388608x3_S8388608x2_0_0 : S8388608x3.Slices ![0, 0] S8388608x2
  bcast_S_S8388608x2 : S_.BroadcastsInDim S8388608x2 (![] : Fin 0 → Fin S8388608x2.rank)
  slices_S8388608x2_S8388608x1_0_0 : S8388608x2.Slices ![0, 0] S8388608x1
  shapeCasts_S8388608x1_S8388608 : S8388608x1.ShapeCasts S8388608
  bcast_S_S8388608 : S_.BroadcastsInDim S8388608 (![] : Fin 0 → Fin S8388608.rank)
  slices_S8388608x2_S8388608x1_0_1 : S8388608x2.Slices ![0, 1] S8388608x1
  slices_S8388608x3_S8388608x1_0_2 : S8388608x3.Slices ![0, 2] S8388608x1
  bcast_S_S4194304 : S_.BroadcastsInDim S4194304 (![] : Fin 0 → Fin S4194304.rank)
  bcast_S8388608_S8388608x1_0 : S8388608.BroadcastsInDim S8388608x1 (![0] : Fin 1 → Fin S8388608x1.rank)
  shapeCasts_S4194304_S2048x2048 : S4194304.ShapeCasts S2048x2048
  scatter_S4194304_S8388608x1_S8388608_n_0_0_1_wf : ScatterDims.WF S4194304 S8388608x1 S8388608 [] [0] [0] 1

variable [Facts₀]

def scatter_S4194304_S8388608x1_S8388608_n_0_0_1 : ScatterDims S4194304 S8388608x1 S8388608 where
  updateWindowDims := []
  insertedWindowDims := [0]
  scatterDimsToOperandDims := [0]
  indexVectorDim := 1
  wf := scatter_S4194304_S8388608x1_S8388608_n_0_0_1_wf

class Facts : Prop extends Facts₀ where

variable [Facts]
-- ==== Proof.ClampConvert.lean ====
/-
  Clamping a real to [0, 2047] and then converting it to a signed 32-bit word gives the same word as
  converting first (toward zero, saturating at the ends of the signed range) and then clamping the
  word to [0, 2047] with the signed integer maximum and minimum.  This holds at every extended real,
  the two infinities included: below 0 both sides are 0, above 2047 both are 2047, and in between
  both are the floor.  The saturation of the conversion never matters because the signed range
  contains [0, 2047].
-/
import Idealize.ShloMosaic.PureOps.Ideal

noncomputable section

namespace Cert.Bins

open Idealize.ShloMosaic

/-- The pattern of `+0.0` denotes the real zero. -/
theorem ofBits_zero : Ideal.ofBits .f32 0x00000000#32 = 0 := by
  simp [Ideal.ofBits, Ideal.ieee]

/-- The pattern `0x44FFE000` denotes the real 2047. -/
theorem ofBits_2047 : Ideal.ofBits .f32 0x44FFE000#32 = ((2047 : ℝ) : EReal) := by
  simp [Ideal.ofBits, Ideal.ieee, -EReal.coe_mul]; norm_num

/-- A signed word made from an integer of the signed 32-bit range reads back that integer. -/
theorem toInt_ofInt32 (m : Int) (h1 : -2147483648 ≤ m) (h2 : m ≤ 2147483647) :
    (BitVec.ofInt 32 m).toInt = m :=
  BitVec.toInt_ofInt_eq_self (by decide) (by norm_num; exact h1) (by norm_num; omega)

/-- Clamping the word of an in-range integer to [0, 2047] by the signed maximum and minimum is the
    word of the clamped integer. -/
theorem clamp_word (m : Int) (h1 : -2147483648 ≤ m) (h2 : m ≤ 2147483647) :
    IntOp.minsi 2047#32 (IntOp.maxsi 0#32 (BitVec.ofInt 32 m)) = BitVec.ofInt 32 (min 2047 (max 0 m)) := by
  unfold IntOp.minsi IntOp.maxsi BitVec.slt
  have e0 : (0#32 : BitVec 32).toInt = 0 := by decide
  have e1 : (2047#32 : BitVec 32).toInt = 2047 := by decide
  rw [toInt_ofInt32 m h1 h2, e0]
  by_cases hm : m < 0
  · rw [decide_eq_true hm, if_pos rfl, e1, e0]
    rw [max_eq_left (le_of_lt hm), min_eq_right (by norm_num)]
    simp
  · rw [decide_eq_false hm]
    simp only [Bool.false_eq_true, if_false]
    rw [toInt_ofInt32 m h1 h2, e1, max_eq_right (not_lt.mp hm)]
    by_cases hk : 2047 < m
    · rw [decide_eq_true hk, if_pos rfl, min_eq_left (le_of_lt hk)]; rfl
    · rw [decide_eq_false hk]
      simp only [Bool.false_eq_true, if_false]
      rw [min_eq_right (not_lt.mp hk)]

/-- The floor of a real clamped to [0, 2047] is the floor clamped to [0, 2047]: the floor is monotone
    and fixes the two integer bounds. -/
theorem floor_clamp (r : ℝ) : ⌊min (2047 : ℝ) (max 0 r)⌋ = min 2047 (max 0 ⌊r⌋) := by
  rw [(Int.floor_mono (R := ℝ)).map_min, (Int.floor_mono (R := ℝ)).map_max]
  have a : ⌊(2047 : ℝ)⌋ = 2047 := by exact_mod_cast Int.floor_intCast (R := ℝ) 2047
  have b : ⌊(0 : ℝ)⌋ = 0 := Int.floor_zero
  rw [a, b]

/-- Clamp, then convert, is convert, then clamp, at a real. -/
theorem convert_clamp_coe (r : ℝ) :
    Ideal.fptosi 32 (min ((2047 : ℝ) : EReal) (max (0 : EReal) (r : EReal)))
      = IntOp.minsi 2047#32 (IntOp.maxsi 0#32 (Ideal.fptosi 32 (r : EReal))) := by
  have hc : min ((2047 : ℝ) : EReal) (max (0 : EReal) (r : EReal)) = ((min 2047 (max 0 r) : ℝ) : EReal) := by
    rw [← EReal.coe_zero, ← EReal.coe_strictMono.monotone.map_max, ← EReal.coe_strictMono.monotone.map_min]
  rw [hc]
  unfold Ideal.fptosi
  rw [Ideal.toIntClamped_coe, Ideal.toIntClamped_coe]
  have hc0 : (0 : ℝ) ≤ min 2047 (max 0 r) := le_min (by norm_num) (le_max_left _ _)
  rw [if_pos hc0, floor_clamp]
  have hlo : ((-(2 ^ (32 - 1) : Nat) : Int)) = -2147483648 := by norm_num
  have hhi : (((2 ^ (32 - 1) : Nat) : Int) - 1) = 2147483647 := by norm_num
  rw [hlo, hhi]
  -- the truncation of r toward zero
  generalize ht : (if 0 ≤ r then ⌊r⌋ else ⌈r⌉) = t
  have key : min 2047 (max 0 ⌊r⌋) = min 2047 (max 0 (max (-2147483648) (min 2147483647 t))) := by
    by_cases h0 : 0 ≤ r
    · rw [if_pos h0] at ht
      have : 0 ≤ ⌊r⌋ := Int.floor_nonneg.mpr h0
      omega
    · rw [if_neg h0] at ht
      have h1 : ⌊r⌋ < 0 := Int.floor_lt.mpr (by exact_mod_cast not_le.mp h0)
      have h2 : ⌈r⌉ ≤ 0 := Int.ceil_le.mpr (by exact_mod_cast le_of_lt (not_le.mp h0))
      omega
  rw [clamp_word _ (le_max_left _ _) (max_le (by norm_num) (min_le_left _ _)), ← key]
  congr 1
  omega

/-- The conversion at the two infinities is the end of the signed range on that side. -/
theorem fptosi_bot : Ideal.fptosi 32 (⊥ : EReal) = BitVec.ofInt 32 (-2147483648) := by
  show BitVec.ofInt 32 ((-(2 ^ (32 - 1) : Nat) : Int)) = _
  norm_num
theorem fptosi_top : Ideal.fptosi 32 (⊤ : EReal) = BitVec.ofInt 32 2147483647 := by
  show BitVec.ofInt 32 (((2 ^ (32 - 1) : Nat) : Int) - 1) = _
  norm_num

/-- Clamp, then convert, is convert, then clamp, at every extended real. -/
theorem convert_clamp (z : EReal) :
    Ideal.fptosi 32 (min ((2047 : ℝ) : EReal) (max (0 : EReal) z))
      = IntOp.minsi 2047#32 (IntOp.maxsi 0#32 (Ideal.fptosi 32 z)) := by
  induction z using EReal.rec with
  | bot =>
    -- below everything: the clamp gives 0, whose conversion and clamp agree with the real case at 0
    have hL : max (0 : EReal) ⊥ = max (0 : EReal) ((0 : ℝ) : EReal) := by
      rw [max_eq_left bot_le, EReal.coe_zero, max_self]
    rw [hL, convert_clamp_coe 0, fptosi_bot, clamp_word _ (by norm_num) (by norm_num)]
    have h0 : Ideal.fptosi 32 ((0 : ℝ) : EReal) = BitVec.ofInt 32 0 := by
      unfold Ideal.fptosi; rw [Ideal.toIntClamped_coe]; simp
    rw [h0, clamp_word _ (by norm_num) (by norm_num)]
    norm_num
  | top =>
    have hL : min ((2047 : ℝ) : EReal) (max (0 : EReal) ⊤)
        = min ((2047 : ℝ) : EReal) (max (0 : EReal) ((2047 : ℝ) : EReal)) := by
      rw [max_eq_right le_top, min_eq_left le_top,
        max_eq_right (by exact_mod_cast (by norm_num : (0 : ℝ) ≤ 2047)), min_self]
    rw [hL, convert_clamp_coe 2047, fptosi_top, clamp_word _ (by norm_num) (by norm_num)]
    have h0 : Ideal.fptosi 32 ((2047 : ℝ) : EReal) = BitVec.ofInt 32 2047 := by
      unfold Ideal.fptosi; rw [Ideal.toIntClamped_coe, if_pos (by norm_num)]
      have a : ⌊(2047 : ℝ)⌋ = 2047 := by exact_mod_cast Int.floor_intCast (R := ℝ) 2047
      rw [a]; norm_num
    rw [h0, clamp_word _ (by norm_num) (by norm_num)]
    norm_num
  | coe r => exact convert_clamp_coe r

end Cert.Bins

end
-- ==== Proof.FlatIndex.lean ====
/-
  The flat bin index of one sample, as both programs compute it at the ideal instance.

  A sample is a row (p, q, v) of the input.  Each of the two position coordinates y is turned into
  a bin: floor (y * 2048), limited to [0, 2047], as a signed 32-bit word.  One program limits the
  real number and then converts it to a word (`binClampFirst`); the other converts first and then
  limits the word (`binConvertFirst`).  By `Cert.Bins.convert_clamp` the two are the same word at
  every extended real.  The flat index of the sample is bin p * 2048 + bin q in wrapping word
  arithmetic (`flatOf`), the same expression in both programs.

  Also here: a column of an N-by-w array flattened to length N, read at n, is the array at (n, column).
-/
import proofs.«125788_j83588653514800_1_alg».proof.Proof.ClampConvert
import Idealize.ShloMosaic.Lib.ValueIdx
import Idealize.ShloMosaic.Lib.Pipeline.Value

noncomputable section

namespace Cert.Bins

open Idealize.ShloMosaic Idealize.ShloMosaic.ValueIdx

variable {F : FTy → Type} [FloatOps F]

/-- One coordinate's bin, the real number limited to [0, 2047] before the conversion to a word. -/
def binClampFirst (y : F .f32) : BitVec 32 :=
  FloatOps.fptosi 32 (FloatOps.minimumf (FloatOps.ofBits .f32 0x44FFE000#32)
    (FloatOps.maximumf (FloatOps.ofBits .f32 0x00000000#32)
      (FloatOps.floor (FloatOps.mulf y (FloatOps.ofBits .f32 0x45000000#32)))))

/-- One coordinate's bin, converted to a word first and the word then limited to [0, 2047]. -/
def binConvertFirst (y : F .f32) : BitVec 32 :=
  IntOp.minsi 2047#32 (IntOp.maxsi 0#32
    (FloatOps.fptosi 32 (FloatOps.hostUnary .floor (FloatOps.mulf y (FloatOps.ofBits .f32 0x45000000#32)))))

/-- At the ideal instance the two orders give one word, whatever the coordinate. -/
theorem bin_eq (y : Ideal .f32) : binClampFirst (F := Ideal) y = binConvertFirst (F := Ideal) y := by
  unfold binClampFirst binConvertFirst
  simp only [Ideal.ofBits_def, Ideal.maximumf_def, Ideal.minimumf_def, Ideal.floor_def, Ideal.hostUnary_floor_def,
    ofBits_zero, ofBits_2047]
  exact convert_clamp _

/-- The flat index from the two bins: first bin times 2048 plus second bin, in word arithmetic. -/
def flatOf (b0 b1 : BitVec 32) : BitVec 32 := IntOp.addi (IntOp.muli b0 2048#32) b1

/-- The flat indices of a whole array of coordinate pairs of any shape, clamping before converting. -/
def flatClampFirst (s : Shape) (a0 a1 : FVec F s .f32) : IVec s 32 :=
  fun i => flatOf (binClampFirst (a0 i)) (binClampFirst (a1 i))

/-- A change of shape moves through the pointwise flat index. -/
theorem shapeCast_flatClampFirst {s t : Shape} (a0 a1 : FVec F s .f32) (h : s.ShapeCasts t) :
    shapeCast t (flatClampFirst s a0 a1) h = flatClampFirst t (shapeCast t a0 h) (shapeCast t a1 h) := rfl

/-- Column `j` of an N-by-w array, as a column and then flattened to length N, read at `n`, is the array at
    `(n, j)`. -/
theorem column_flat_apply {α : Type} {N w : Nat} (j : Nat) (hj : j < w) (x : (⟨2, ![N, w]⟩ : Shape).Idx → α)
    (hs : (⟨2, ![N, w]⟩ : Shape).Slices ![0, j] (⟨2, ![N, 1]⟩ : Shape))
    (hc : (⟨2, ![N, 1]⟩ : Shape).ShapeCasts (⟨1, ![N]⟩ : Shape)) (n : (⟨1, ![N]⟩ : Shape).Idx) :
    shapeCast (⟨1, ![N]⟩ : Shape) (extractStridedSlice (⟨2, ![N, 1]⟩ : Shape) ![0, j] x hs) hc n
      = x (ix2 (n 0) (⟨j, hj⟩ : Fin w)) := by
  refine (shapeCast_apply _ hc n (ix2 (n 0) (0 : Fin 1)) ?_).trans ?_
  · rw [Shape.rowMajor_val_two, Shape.rowMajor_val_one]
    show (n 0).val * 1 + 0 = (n 0).val
    omega
  · refine extractStridedSlice_apply _ x hs _ (ix2 (n 0) (⟨j, hj⟩ : Fin w)) ?_
    intro a
    match a with
    | ⟨0, _⟩ => show (n 0).val = 0 + (n 0).val; omega
    | ⟨1, _⟩ => show j = j + 0; omega

/-- The leading columns of an N-by-w array cut out as an N-by-v array (v ≤ w), read at `(a, j)`, are the array
    at `(a, j)`. -/
theorem leading_columns_apply {α : Type} {N w v : Nat} (x : (⟨2, ![N, w]⟩ : Shape).Idx → α)
    (hs : (⟨2, ![N, w]⟩ : Shape).Slices ![0, 0] (⟨2, ![N, v]⟩ : Shape)) (a : Fin N) (j : Nat) (hj : j < v) (hj' : j < w) :
    extractStridedSlice (⟨2, ![N, v]⟩ : Shape) ![0, 0] x hs (ix2 a (⟨j, hj⟩ : Fin v)) = x (ix2 a (⟨j, hj'⟩ : Fin w)) := by
  refine extractStridedSlice_apply _ x hs _ (ix2 a (⟨j, hj'⟩ : Fin w)) ?_
  intro b
  match b with
  | ⟨0, _⟩ => show a.val = 0 + a.val; omega
  | ⟨1, _⟩ => show j = 0 + j; omega

end Cert.Bins

end
-- ==== Proof.KernelArray.lean ====
/-
  The array of flat indices the kernel region leaves behind.

  The region runs over 16 grid points; point t reads rows 4096 t .. 4096 t + 4095 of the two
  65536-by-128 coordinate arrays and writes the same rows of the 65536-by-128 index array.  The body
  is pointwise: entry (r, l) of what it stores is the flat index of the coordinate pair at (r, l)
  of the two blocks.  The three windows share one index map, so the block a point writes is the
  restriction of ONE whole-array function — the pointwise flat index of the two coordinate arrays —
  and the 16 blocks tile the array (row r lies in block r / 4096).  Hence after the run the array is
  that function everywhere.
-/
import proofs.«125788_j83588653514800_1_alg».proof.Proof.Gen.KernelIdeal.Frame
import proofs.«125788_j83588653514800_1_alg».proof.Proof.FlatIndex
import Idealize.ShloMosaic.Lib.Pipeline.Value

noncomputable section

namespace Cert.KernelIdeal.Bins

open Cert.KernelIdeal Cert.KernelIdeal.Gen Idealize.ShloMosaic Idealize.ShloMosaic.TcCoe Idealize.SL.Sem
open Idealize.ShloMosaic.Pipeline (Dat)
open Cert.Bins

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- What the body stores is the pointwise flat index of the two blocks it loaded. -/
theorem stored_eq (x0 x1 : Vec F S4096x128 .f32) : k0_pay1 x0 x1 = flatClampFirst S4096x128 x0 x1 := by
  unfold k0_pay1
  simp only [shapeCast_self]
  rfl

/-- The whole index array as one function of the two coordinate arrays. -/
abbrev wholeFlat (a0 a1 : S65536x128.Idx → Elt F .f32) : S65536x128.Idx → Elt F .i32 :=
  flatClampFirst S65536x128 a0 a1

/-- The three windows move together: at every grid point the two inputs' block indices are the output's,
    the row-block index is below 16 and the column-block index is 0. -/
theorem windows_together : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15 ∧ win0_2.index t (1 : Fin 2) = 0 :=
  (by decide +kernel : ∀ t : Fin grid0.N, _)

/-- Every row-block is some grid point's. -/
theorem every_rowblock : ∀ q : Fin 16, ∃ t : Fin cfg0.N, win0_2.index t = ![q.val, 0] :=
  (by decide +kernel : ∀ q : Fin 16, ∃ t : Fin grid0.N, win0_2.index t = ![q.val, 0])

/-- What point `t` writes back is block `t` of the whole-array function of the coordinate arrays as the
    region finds them. -/
theorem written_eq (c : Dev nD) (t : Fin cfg0.N) :
    (dats m 0 c).flushed 2 t
      = ((cfg0.win 2).blk t).view.read (Elt F) (wholeFlat (V m c main_v2) (V m c main_v5)) := by
  show (cfg0.win 2).cut (grid0.coords t) ((dats m 0 c).after 2 t) = _
  rw [after0_2]
  unfold out0_2
  rw [View.canon_unit_zero origin]
  simp only [View.ld_unit_zero (S := S4096x128) origin]
  rw [stored_eq]
  obtain ⟨e0, e1, e2, e3, e4, e5⟩ := windows_together t
  funext j
  show flatOf (binClampFirst (V m c main_v2 (((cfg0.win 0).blk t).view.emb j))) (binClampFirst (V m c main_v5 (((cfg0.win 1).blk t).view.emb j)))
    = flatOf (binClampFirst (V m c main_v2 (((cfg0.win 2).blk t).view.emb j))) (binClampFirst (V m c main_v5 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 128 + 1 * (j 1).val = win0_2.index t (1 : Fin 2) * 128 + 1 * (j 1).val; omega
  rw [h0, h1]

/-- An index of the array lies in point `t`'s block iff each coordinate lies in the block's range. -/
theorem in_block (t : Fin cfg0.N) (i : S65536x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v8).slice (win0_2.rect t)).set ↔ _
  rw [View.set_slice_whole, Rect.mem_set_unit]
  exact Iff.rfl

/-- The blocks tile the array: row `r` is in the block of the point whose row-block index is `r / 4096`. -/
theorem tiled (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  obtain ⟨t, ht⟩ := every_rowblock ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- The index array after the run: the pointwise flat index of the two coordinate arrays. -/
theorem array_after (c : Dev nD) :
    (dats m 0 c).arrAt 2 cfg0.N = wholeFlat (V m c main_v2) (V m c main_v5) :=
  (dats m 0 c).arrAt_eq_of_cover 2 (wholeFlat (V m c main_v2) (V m c main_v5)) (fun t _ => written_eq m c t) tiled

end Cert.KernelIdeal.Bins

end
-- ==== Proof.KernelHost.lean ====
/-
  The host lines around the region, and the whole program's result.

  Before the region the program cuts the three columns out of the N-by-3 input and flattens each to
  length N; the two position columns are further folded to 65536 by 128 for the region.  After the
  region the 65536-by-128 index array is flattened back to length N, negative indices are wrapped by
  adding the image size, and the value column is scattered into a zero image at those indices; the
  image is then folded to 2048 by 2048 (`imageOf`).

  Folding a length-N array to 65536 by 128 and flattening it again gives the array back, and the
  pointwise flat index moves through a change of shape, so the flattened index array is the pointwise
  flat index of the two flattened position columns.
-/
import proofs.«125788_j83588653514800_1_alg».proof.Proof.KernelArray
import Idealize.ShloMosaic.Lib.StableHlo.Run

noncomputable section

namespace Cert.KernelIdeal.Bins

open Cert.KernelIdeal Cert.KernelIdeal.Gen Idealize.ShloMosaic Idealize.ShloMosaic.TcCoe Idealize.SL.Sem
open Idealize.ShloMosaic.StableHlo
open Idealize.ShloMosaic.Pipeline (Dat)
open Cert.Bins

variable {F : FTy → Type} [FloatOps F]
variable (m : (ℓ : Loc nD τ sig) → Buf (Elt F) ℓ) (ρ : Dev nD → PrngReg)

/-- Column `j` of the input, flattened to length N. -/
abbrev columnFlat (x : S8388608x3.Idx → Elt F .f32) (j : Nat) (h : S8388608x3.Slices ![0, j] S8388608x1) : S8388608.Idx → Elt F .f32 :=
  shapeCast S8388608 (extractStridedSlice S8388608x1 ![0, j] x h) shapeCasts_S8388608x1_S8388608

/-- The first position column as the region finds it: flattened, then folded to 65536 by 128. -/
theorem first_column (c : Dev nD) :
    (V m c main_v2 : S65536x128.Idx → Elt F .f32)
      = shapeCast S65536x128 (columnFlat (m ((c : Thread nD τ).loc main_arg0)) 0 slices_S8388608x3_S8388608x1_0_0) shapeCasts_S8388608_S65536x128 := by
  show StableHlo.after hostOps0 (fun b => m (c, b)) (Proc.devRef .tc main_v2) = _
  after_results
  rfl

/-- The second position column as the region finds it. -/
theorem second_column (c : Dev nD) :
    (V m c main_v5 : S65536x128.Idx → Elt F .f32)
      = shapeCast S65536x128 (columnFlat (m ((c : Thread nD τ).loc main_arg0)) 1 slices_S8388608x3_S8388608x1_0_1) shapeCasts_S8388608_S65536x128 := by
  show StableHlo.after hostOps0 (fun b => m (c, b)) (Proc.devRef .tc main_v5) = _
  after_results
  rfl

/-- The value column as the region finds it (and leaves it). -/
theorem value_column (c : Dev nD) :
    (V m c main_v7 : S8388608.Idx → Elt F .f32)
      = columnFlat (m ((c : Thread nD τ).loc main_arg0)) 2 slices_S8388608x3_S8388608x1_0_2 := by
  show StableHlo.after hostOps0 (fun b => m (c, b)) (Proc.devRef .tc main_v7) = _
  after_results
  rfl

/-- The image from the flat indices and the values: wrap negative indices, scatter the values into zeros
    (a later sample replacing an earlier one at the same index), fold to 2048 by 2048. -/
def imageOf (I : IVec S8388608 32) (src : S8388608.Idx → Elt F .f32) : S2048x2048.Idx → Elt F .f32 :=
  shapeCast S2048x2048 (Host.scatter scatter_S4194304_S8388608x1_S8388608_n_0_0_1 (fun _ b => b)
    (broadcastInDim S4194304 ![] bcast_S_S4194304 (constant (F := F) S_ .f32 0x00000000#32))
    (broadcastInDim S8388608x1 ![0] bcast_S8388608_S8388608x1_0
      (select (cmpi .slt I (broadcastInDim S8388608 ![] bcast_S_S8388608 (constantI S_ 32 0#32)))
        (addi I (broadcastInDim S8388608 ![] bcast_S_S8388608 (constantI S_ 32 4194304#32))) I))
    src) shapeCasts_S4194304_S2048x2048

/-- The lines after the region, run from ANY contents of the buffers: the result buffer ends holding the image of
    what the index array held (flattened) and what the value column held. -/
theorem tail_of (W : Valuation τ sig (Elt F)) :
    StableHlo.after hostOps1 W (Proc.devRef .tc main_v18)
      = imageOf (shapeCast S8388608 (W (Proc.devRef .tc main_v8)) shapeCasts_S65536x128_S8388608) (W (Proc.devRef .tc main_v7)) := by
  after_results
  rfl

/-- What the lines after the region leave in the result buffer: the image of the flattened index array and
    the value column. -/
theorem result_after (c : Dev nD) :
    Pipeline.afterTail₀ cfgs (dats m) 0 (V0 m) [hostOps1] c main_v18
      = imageOf (shapeCast S8388608 ((dats m 0 c).arrAt 2 cfg0.N) shapeCasts_S65536x128_S8388608) (V m c main_v7) := by
  unfold Pipeline.afterTail₀
  refine (tail_of (Pipeline.withArrays (cfgs 0).spec c (V0 m c) fun w => (dats m 0 c).arrAt w (cfgs 0).N)).trans ?_
  rw [Pipeline.withArrays_arr spec0 launch0.win.arr_inj c _ _ 2,
    Pipeline.withArrays_of_ne _ c (V0 m c) _ main_v7 (by exact (by decide : ∀ w, Pipeline.arrRef spec0 w ≠ main_v7))]

/-- The flattened index array is the pointwise flat index of the two flattened position columns: the pointwise
    flat index moves through the flattening, and folding then flattening a column gives it back. -/
theorem flat_indices (c : Dev nD) :
    shapeCast S8388608 ((dats m 0 c).arrAt 2 cfg0.N) shapeCasts_S65536x128_S8388608
      = flatClampFirst S8388608 (columnFlat (m ((c : Thread nD τ).loc main_arg0)) 0 slices_S8388608x3_S8388608x1_0_0)
          (columnFlat (m ((c : Thread nD τ).loc main_arg0)) 1 slices_S8388608x3_S8388608x1_0_1) := by
  rw [array_after, first_column, second_column]
  show shapeCast S8388608 (flatClampFirst S65536x128 _ _) _ = _
  rw [shapeCast_flatClampFirst, shapeCast_shapeCast, shapeCast_shapeCast]

/-- The whole program's run: it ends with the result buffer at the image of the samples' flat indices and the value
    column, and the input unchanged. -/
theorem run : θ_run defs (onTc (τ := τ) (main (F := F))) ⟨m, fun _ => 0, ρ⟩ fun r => ∀ c : Dev nD,
      r.2.mem ((c : Thread nD τ).loc main_v18)
        = imageOf (flatClampFirst S8388608 (columnFlat (m ((c : Thread nD τ).loc main_arg0)) 0 slices_S8388608x3_S8388608x1_0_0)
            (columnFlat (m ((c : Thread nD τ).loc main_arg0)) 1 slices_S8388608x3_S8388608x1_0_1))
          (columnFlat (m ((c : Thread nD τ).loc main_arg0)) 2 slices_S8388608x3_S8388608x1_0_2)
      ∧ r.2.mem ((c : Thread nD τ).loc main_arg0) = m ((c : Thread nD τ).loc main_arg0) :=
  (θ_run defs _ _).mono (fun r h c =>
      ⟨((h c).2 main_v18 (Pipeline.mem_restRefs_of main_v18 (by decide) (by decide))).trans
          ((result_after m c).trans (by rw [flat_indices, value_column])),
        ((h c).2 main_arg0 (Pipeline.mem_restRefs_of main_arg0 (by decide) (by decide))).trans (W_main_arg0 m (dats m) c)⟩)
    (run_main m ρ)

end Cert.KernelIdeal.Bins

end
-- ==== Proof.Bridge.lean ====
/-
  The two programs compute one image.

  Both end with the same lines: wrap negative flat indices, scatter the value column into a zero
  image at the flat indices, fold to 2048 by 2048.  So it is enough that they feed those lines the
  same flat indices and the same values.  The values are the input's third column in both.  The flat
  index of sample n is, in both, (bin of x[n,0]) * 2048 + (bin of x[n,1]) (`sampleFlat`): the kernel
  program computes a bin by limiting floor (y * 2048) to [0, 2047] as a real and converting, on
  position columns it cut out one at a time and folded to 65536 by 128 and back; the reference
  converts floor (y * 2048) to a word and limits the word, on the two position columns cut out
  together.  `Cert.Bins.bin_eq` says the two bins are one word.
-/
import proofs.«125788_j83588653514800_1_alg».proof.Proof.KernelHost
import proofs.«125788_j83588653514800_1_alg».proof.Proof.Gen.ReferenceIdeal.Run

noncomputable section

namespace Cert.Proof.Bins

open Idealize.ShloMosaic Idealize.ShloMosaic.ValueIdx Idealize.ShloMosaic.TcCoe Idealize.SL.Sem
open Cert.Bins

/-- The flat index of every sample of the input: first bin times 2048 plus second bin. -/
def sampleFlat (x : (⟨2, ![8388608, 3]⟩ : Shape).Idx → EReal) : (⟨1, ![8388608]⟩ : Shape).Idx → BitVec 32 :=
  fun n => flatOf (binClampFirst (F := Ideal) (x (ix2 (n 0) (⟨0, by decide⟩ : Fin 3))))
    (binClampFirst (F := Ideal) (x (ix2 (n 0) (⟨1, by decide⟩ : Fin 3))))

/-! ## The kernel program's flat indices -/

section Kernel
open Cert.KernelIdeal Cert.KernelIdeal.Gen Cert.KernelIdeal.Bins

/-- The pointwise flat index of the two flattened position columns is the flat index of every sample. -/
theorem kernel_flat (x : S8388608x3.Idx → Elt Ideal .f32) :
    flatClampFirst (F := Ideal) S8388608 (columnFlat x 0 slices_S8388608x3_S8388608x1_0_0) (columnFlat x 1 slices_S8388608x3_S8388608x1_0_1)
      = sampleFlat x := by
  funext n
  exact congrArg₂ flatOf
    (congrArg (binClampFirst (F := Ideal)) (column_flat_apply 0 (by decide) x _ _ n))
    (congrArg (binClampFirst (F := Ideal)) (column_flat_apply 1 (by decide) x _ _ n))

end Kernel

/-! ## The reference's flat indices -/

section Reference
open Cert.ReferenceIdeal Cert.ReferenceIdeal.Gen

/-- The reference's two bins of every sample, as an N-by-2 array of words: converted, then limited. -/
def refBins (x : S8388608x3.Idx → Elt Ideal .f32) : IVec S8388608x2 32 :=
  minsi (broadcastInDim S8388608x2 ![] bcast_S_S8388608x2 (id (constantI S_ 32 2047#32)))
    (maxsi (broadcastInDim S8388608x2 ![] bcast_S_S8388608x2 (id (constantI S_ 32 0#32)))
      (fptosi 32 (Host.floor (mulf (extractStridedSlice S8388608x2 ![0, 0] x slices_S8388608x3_S8388608x2_0_0)
        (broadcastInDim S8388608x2 ![] bcast_S_S8388608x2 (constant (F := Ideal) S_ .f32 0x45000000#32))))))

/-- Entry `(a, j)` of it is the bin of the input at `(a, j)`. -/
theorem refBins_apply (x : S8388608x3.Idx → Elt Ideal .f32) (a : Fin 8388608) (j : Nat) (hj : j < 2) :
    refBins x (ix2 a (⟨j, hj⟩ : Fin 2)) = binConvertFirst (F := Ideal) (x (ix2 a (⟨j, by omega⟩ : Fin 3))) := by
  have e := leading_columns_apply x slices_S8388608x3_S8388608x2_0_0 a j hj (by omega)
  unfold refBins binConvertFirst
  simp only [minsi, maxsi, fptosi, Host.floor, mulf]
  rw [e]
  rfl

/-- The reference's flat indices: first bin column times 2048 plus second bin column. -/
def refFlat (x : S8388608x3.Idx → Elt Ideal .f32) : IVec S8388608 32 :=
  addi (muli (shapeCast S8388608 (extractStridedSlice S8388608x1 ![0, 0] (refBins x) slices_S8388608x2_S8388608x1_0_0) shapeCasts_S8388608x1_S8388608)
      (broadcastInDim S8388608 ![] bcast_S_S8388608 (constantI S_ 32 2048#32)))
    (shapeCast S8388608 (extractStridedSlice S8388608x1 ![0, 1] (refBins x) slices_S8388608x2_S8388608x1_0_1) shapeCasts_S8388608x1_S8388608)

/-- They are the flat index of every sample. -/
theorem reference_flat (x : S8388608x3.Idx → Elt Ideal .f32) : refFlat x = sampleFlat x := by
  funext n
  show flatOf (shapeCast S8388608 (extractStridedSlice S8388608x1 ![0, 0] (refBins x) slices_S8388608x2_S8388608x1_0_0) shapeCasts_S8388608x1_S8388608 n)
      (shapeCast S8388608 (extractStridedSlice S8388608x1 ![0, 1] (refBins x) slices_S8388608x2_S8388608x1_0_1) shapeCasts_S8388608x1_S8388608 n) = _
  have h0 := (column_flat_apply 0 (by decide) (refBins x) slices_S8388608x2_S8388608x1_0_0 shapeCasts_S8388608x1_S8388608 n).trans
    (refBins_apply x (n 0) 0 (by decide))
  have h1 := (column_flat_apply 1 (by decide) (refBins x) slices_S8388608x2_S8388608x1_0_1 shapeCasts_S8388608x1_S8388608 n).trans
    (refBins_apply x (n 0) 1 (by decide))
  exact (congrArg₂ flatOf h0 h1).trans (congrArg₂ flatOf (bin_eq _).symm (bin_eq _).symm)

/-- The reference's result, as its run states it, is the image (the lines the two programs share) of its flat
    indices and the input's third column. -/
theorem reference_result (m' : (ℓ : Loc nD τ sig) → Buf (Elt Ideal) ℓ) (c : Dev nD) :
    Cert.ReferenceIdeal.Value.res_main_v23 (F := Ideal) m' c
      = Cert.KernelIdeal.Bins.imageOf (F := Ideal) (refFlat (m' ((c.tc : Thread nD τ).loc main_arg0)))
          (shapeCast S8388608 (extractStridedSlice S8388608x1 ![0, 2] (m' ((c.tc : Thread nD τ).loc main_arg0)) slices_S8388608x3_S8388608x1_0_2)
            shapeCasts_S8388608x1_S8388608) := by
  unfold Cert.ReferenceIdeal.Value.res_main_v23 Cert.KernelIdeal.Bins.imageOf refFlat refBins
  rfl

end Reference

/-- Fed the same input, the two programs' images are equal: the flat indices agree sample by sample and the value
    columns are the same column. -/
theorem same_image (x : Cert.KernelIdeal.S8388608x3.Idx → Elt Ideal .f32) :
    Cert.KernelIdeal.Bins.imageOf (F := Ideal)
        (flatClampFirst (F := Ideal) Cert.KernelIdeal.S8388608
          (Cert.KernelIdeal.Bins.columnFlat x 0 Cert.KernelIdeal.Facts₀.slices_S8388608x3_S8388608x1_0_0)
          (Cert.KernelIdeal.Bins.columnFlat x 1 Cert.KernelIdeal.Facts₀.slices_S8388608x3_S8388608x1_0_1))
        (Cert.KernelIdeal.Bins.columnFlat x 2 Cert.KernelIdeal.Facts₀.slices_S8388608x3_S8388608x1_0_2)
      = Cert.KernelIdeal.Bins.imageOf (F := Ideal) (refFlat x)
          (shapeCast Cert.ReferenceIdeal.S8388608
            (extractStridedSlice Cert.ReferenceIdeal.S8388608x1 ![0, 2] x Cert.ReferenceIdeal.Facts₀.slices_S8388608x3_S8388608x1_0_2)
            Cert.ReferenceIdeal.Facts₀.shapeCasts_S8388608x1_S8388608) := by
  rw [kernel_flat, reference_flat]

end Cert.Proof.Bins

end
-- ==== Proof.lean ====
/-
  Scattering N = 8388608 samples (p, q, v) into a 2048-by-2048 image at bin (floor (2048 p), floor (2048 q)),
  each bin coordinate limited to [0, 2047].

  The kernel program computes the flat bin index floor-limit-convert inside a pipelined region over 16 row blocks
  of the position columns, then scatters on the host; the reference converts before it limits and does everything
  on the host.  Limiting a real to [0, 2047] and then converting it to a signed word is converting it (saturating)
  and then limiting the word (Proof/ClampConvert.lean), so every sample gets the same flat index in both
  (Proof/FlatIndex.lean, Proof/Bridge.lean); the lines that follow — wrapping negative indices, the scatter of the
  value column into zeros, the fold to 2048 by 2048 — are the same lines fed the same arrays.  What the region
  leaves in its output array is read off its run block by block (Proof/KernelArray.lean) and carried through the
  host lines around it (Proof/KernelHost.lean).  No finiteness of the input is used: the equality of the two bins
  holds at the infinities too.

  The three frames are the generated runs; the idealization rewrote nothing, so `preserves` is trivial.
-/
import proofs.«125788_j83588653514800_1_alg».proof.Defs
import proofs.«125788_j83588653514800_1_alg».proof.Proof.Gen.Kernel
import proofs.«125788_j83588653514800_1_alg».proof.Proof.Gen.Kernel.Skeleton
import proofs.«125788_j83588653514800_1_alg».proof.Proof.Gen.Kernel.Launch
import proofs.«125788_j83588653514800_1_alg».proof.Proof.Gen.Kernel.Points
import proofs.«125788_j83588653514800_1_alg».proof.Proof.Gen.Kernel.Frame
import proofs.«125788_j83588653514800_1_alg».proof.Proof.Gen.KernelIdeal
import proofs.«125788_j83588653514800_1_alg».proof.Proof.Gen.KernelIdeal.Skeleton
import proofs.«125788_j83588653514800_1_alg».proof.Proof.Gen.KernelIdeal.Launch
import proofs.«125788_j83588653514800_1_alg».proof.Proof.Gen.KernelIdeal.Points
import proofs.«125788_j83588653514800_1_alg».proof.Proof.Gen.KernelIdeal.Frame
import proofs.«125788_j83588653514800_1_alg».proof.Proof.Gen.ReferenceIdeal
import proofs.«125788_j83588653514800_1_alg».proof.Proof.Gen.Pre_finite_inputs
import proofs.«125788_j83588653514800_1_alg».proof.Proof.Gen.ReferenceIdeal.Run
import proofs.«125788_j83588653514800_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the input both programs run, leave the input alone, and end with the same image:
    the kernel program's run ends at the image of the samples' flat indices and the third column, the reference's at
    the image of its own flat indices and the same column, and the two index arrays are equal sample by sample. -/
theorem algebraic : Cert.algebraic_KernelIdeal_ReferenceIdeal := by
  intro m ρ m' ρ' _ hagree
  refine ⟨_, Cert.KernelIdeal.Bins.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.Proof.Bins.reference_result, hagree c]
  exact (Cert.Proof.Bins.same_image _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
